-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048x2048 : Shape := ⟨2, ![2048, 2048]⟩
abbrev S2048 : Shape := ⟨1, ![2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x8192x2048 .f32) (main_arg1 : FVec F S2048x2048 .f32) (main_arg2 : FVec F S2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x8192x2048 : Shape := ⟨3, ![4, 8192, 2048]⟩
abbrev S2048x2048 : Shape := ⟨2, ![2048, 2048]⟩
abbrev S2048 : Shape := ⟨1, ![2048]⟩
abbrev S_ : Shape := ⟨0, ![]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 29
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | .hbm, ⟨25, _⟩ => ⟨S32768x2048, .f32⟩
  | .hbm, ⟨26, _⟩ => ⟨S1x2048, .f32⟩
  | .hbm, ⟨27, _⟩ => ⟨S32768x2048, .f32⟩
  | .hbm, ⟨28, _⟩ => ⟨S4x8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S4x8192x2048_S32768x2048 : S4x8192x2048.ShapeCasts S32768x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S32768x2048_S4x8192x2048 : S32768x2048.ShapeCasts S4x8192x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v12) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S2048x2048 : Shape := ⟨2, ![2048, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S4x8192x2048, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x8192x2048, .f32⟩
  | .hbm, ⟨40, _⟩ => ⟨S4x8192x2048, .f32⟩
  | .hbm, ⟨41, _⟩ => ⟨S_, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S4x8192x2048, .f32⟩
  | .hbm, ⟨46, _⟩ => ⟨S4x8192x2048, .f32⟩
  | .hbm, ⟨47, _⟩ => ⟨S1x1x2048, .f32⟩
  | .hbm, ⟨48, _⟩ => ⟨S4x8192x2048, .f32⟩
  | .hbm, ⟨49, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  reducesTo_S4x8192x2048_S4x8192_d2 : S4x8192x2048.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  bcast_S_S4x8192x2048 : S_.BroadcastsInDim S4x8192x2048 (![] : Fin 0 → Fin S4x8192x2048.rank)
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)
  dot_S4x8192x2048_S2048x2048_S4x8192x2048_2_1_01_0_n_n_wf : DotDims.WF S4x8192x2048 S2048x2048 S4x8192x2048 [2] [1] [0, 1] [0] [] []

variable [Facts₀]

def dot_S4x8192x2048_S2048x2048_S4x8192x2048_2_1_01_0_n_n : DotDims S4x8192x2048 S2048x2048 S4x8192x2048 where
  lhsContracting := [2]
  rhsContracting := [1]
  lhsNonContracting := [0, 1]
  rhsNonContracting := [0]
  lhsBatch := []
  rhsBatch := []
  wf := dot_S4x8192x2048_S2048x2048_S4x8192x2048_2_1_01_0_n_n_wf

class Facts : Prop extends Facts₀ where

variable [Facts]
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.Spec.lean ====
/-
  The function both programs compute, on the extended reals.

  A row of 2048 activations is quantized to the 8-bit grid of its own scale: the scale is the larger of the
  row's greatest absolute value and a floor, divided by 127; an entry is divided by the scale, rounded to the
  nearest integer (ties to even), clamped to [-128, 127] and multiplied by the scale again. The output entry
  (row, o) is the sum over k of the quantized entry (row, k) times the quantized weight (o, k), plus the bias at o.
  The quantized weight is the same term of the weight array in both programs, so it stays a variable here.
-/
import Idealize.ShloMosaic.PureOps.Ideal.Laws
import Idealize.ShloMosaic.Lib.ValueIdx

noncomputable section

namespace Cert.ActQuant

open Idealize.ShloMosaic Idealize.ShloMosaic.ValueIdx
open scoped BigOperators

/-- The greatest absolute value of a row: the fold of `max` from -∞ over the row's absolute values. -/
def rowAbsMax (row : Fin 2048 → EReal) : EReal :=
  (Finset.univ : Finset (Fin 2048)).fold max (Ideal.ofBits .f32 0xFF800000#32)
    (fun k => FloatOps.absf (F := Ideal) (φ := .f32) (row k))

/-- The row's scale: the larger of its greatest absolute value and the floor, over 127. -/
def rowScale (row : Fin 2048 → EReal) : EReal :=
  Ideal.div (max (rowAbsMax row) (Ideal.ofBits .f32 0x3727C5AC#32)) (Ideal.ofBits .f32 0x42FE0000#32)

/-- One entry on the scale's grid: divided by the scale, rounded to even, clamped to [-128, 127], scaled back. -/
def onGrid (s v : EReal) : EReal :=
  min (Ideal.ofBits .f32 0x42FE0000#32)
    (max (Ideal.ofBits .f32 0xC3000000#32) (FloatOps.roundeven (F := Ideal) (φ := .f32) (Ideal.div v s))) * s

/-- The quantized row. -/
def quantRow (row : Fin 2048 → EReal) (k : Fin 2048) : EReal := onGrid (rowScale row) (row k)

/-- The output entry: the quantized row against the quantized weight's row `o`, plus the bias at `o`. -/
def outEntry (row : Fin 2048 → EReal) (wrow : Fin 2048 → EReal) (b : EReal) : EReal :=
  (∑ k : Fin 2048, quantRow row k * wrow k) + b

/-- The whole result over [4, 8192, 2048], from the activations, the quantized weight [out, in] and the bias. -/
def result (x : (⟨3, ![4, 8192, 2048]⟩ : Shape).Idx → EReal) (wq : (⟨2, ![2048, 2048]⟩ : Shape).Idx → EReal)
    (bias : (⟨1, ![2048]⟩ : Shape).Idx → EReal) : (⟨3, ![4, 8192, 2048]⟩ : Shape).Idx → EReal :=
  fun i => outEntry (fun k => x (ix3 (i 0) (i 1) k)) (fun k => wq (ix2 (i 2) k)) (bias (ix1 (i 2)))

end Cert.ActQuant

end
-- ==== Proof.BodyEntry.lean ====
/-
  The kernel body's stored value at an entry.

  On a [512, 2048] block of activation rows, the whole [2048, 2048] transposed quantized weight and the [1, 2048]
  bias, the body stores at (p, q): row p of the block quantized on its own scale, contracted over k with column q
  of the weight operand, plus the bias at q. A change of float format is the identity on the extended reals.
-/
import proofs.«165958_j33449205301739_1_alg».proof.Proof.Gen.KernelIdeal.Skeleton
import proofs.«165958_j33449205301739_1_alg».proof.Proof.LibPlainDot
import proofs.«165958_j33449205301739_1_alg».proof.Proof.Spec
import Idealize.ShloMosaic.Lib.Pipeline.Value

noncomputable section

namespace Cert.KernelIdeal.BodyEntry

open Idealize.ShloMosaic Idealize.ShloMosaic.ValueIdx Cert.KernelIdeal Cert.KernelIdeal.Gen Cert.ActQuant
open scoped BigOperators

/-- The row maximum of the absolute values, as the kernel reduces it, is the fold over the row. -/
theorem absMax_entry (v : FVec Ideal S512x2048 .f32) (h : Shape.Reduces S512x2048 [1] S512) (hφ : FKind.Formats .f32)
    (hacc : (0xFF800000#32 : BitVec 32) = FKind.maximumf.neutral .f32 hφ) (p : Fin 512) :
    multiReduction .maximumf [1] S512 (absf v) 0xFF800000#32 h hφ hacc (ix1 p) = rowAbsMax (fun k => v (ix2 p k)) := by
  refine (Ideal.multiReduction_maximumf_single (absf v) _ h hφ hacc (ix1 p)).trans ?_
  unfold rowAbsMax
  refine congrArg (Finset.fold max _ · Finset.univ) ?_
  funext k
  show FloatOps.absf (v (h.lift (ix1 p) k)) = FloatOps.absf (v (ix2 p k))
  refine congrArg (fun i => FloatOps.absf (v i)) ?_
  funext a
  exact Fin.ext (by match a with | ⟨0, _⟩ => rfl | ⟨1, _⟩ => rfl)

/-- The row's scale as the kernel computes it, read at the row's one column entry. -/
theorem scale_entry (v : FVec Ideal S512x2048 .f32) (h : Shape.Reduces S512x2048 [1] S512) (hφ : FKind.Formats .f32)
    (hacc : (0xFF800000#32 : BitVec 32) = FKind.maximumf.neutral .f32 hφ) (hc : S512.ShapeCasts S512x1) (p : Fin 512) :
    divf (φ := .f32) (maximumf (φ := .f32) (shapeCast S512x1 (multiReduction .maximumf [1] S512 (absf v) 0xFF800000#32 h hφ hacc) hc)
        (broadcast S512x1 (Scalar.ofBits (F := Ideal) .f32 0x3727C5AC#32)))
      (broadcast S512x1 (Scalar.ofBits (F := Ideal) .f32 0x42FE0000#32)) (ix2 p (0 : Fin 1))
      = rowScale (fun k => v (ix2 p k)) := by
  rw [divf_apply, maximumf_apply, broadcast_apply, broadcast_apply, PlainDot.shapeCast_a_a1_apply, absMax_entry]
  unfold rowScale
  simp only [Ideal.ofBits_def]

/-- A one-row matrix repeated down the rows, [1, b] to [a, b], reads at (p, q) the row's entry q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The column of row scales the body computes from its activation block. -/
def scaleCol (v : FVec Ideal S512x2048 .f32) : FVec Ideal S512x1 .f32 :=
  divf (φ := .f32) (maximumf (φ := .f32) (shapeCast S512x1 (multiReduction .maximumf [1] S512 (absf v) 0xFF800000#32 reduces_S512x2048_S512 (.inl rfl) rfl) shapeCasts_S512_S512x1)
      (broadcast S512x1 (Scalar.ofBits (F := Ideal) .f32 0x3727C5AC#32)))
    (broadcast S512x1 (Scalar.ofBits (F := Ideal) .f32 0x42FE0000#32))

/-- The block quantized row by row, as the body computes it. -/
def quantBlock (v : FVec Ideal S512x2048 .f32) : FVec Ideal S512x2048 .f32 :=
  mulf (φ := .f32) (minimumf (φ := .f32) (broadcast S512x2048 (Scalar.ofBits (F := Ideal) .f32 0x42FE0000#32))
      (maximumf (φ := .f32) (broadcast S512x2048 (Scalar.ofBits (F := Ideal) .f32 0xC3000000#32))
        (roundeven (φ := .f32) (divf (φ := .f32) v (broadcastTo S512x2048 (scaleCol v) broadcasts_S512x1_S512x2048)))))
    (broadcastTo S512x2048 (scaleCol v) broadcasts_S512x1_S512x2048)

/-- The scale column at row p is the row's scale. -/
theorem scaleCol_entry (v : FVec Ideal S512x2048 .f32) (p : Fin 512) :
    scaleCol v (ix2 p (0 : Fin 1)) = rowScale (fun k => v (ix2 p k)) :=
  scale_entry v _ _ _ _ p

theorem roundeven_apply {s : Shape} {φ : FTy} (a : FVec Ideal s φ) (i : s.Idx) :
    roundeven a i = FloatOps.roundeven (a i) := rfl

/-- The quantized block at (p, k) is row p's entry k on the row's own grid. -/
theorem quantBlock_entry (v : FVec Ideal S512x2048 .f32) (p : Fin 512) (k : Fin 2048) :
    quantBlock v (ix2 p k) = quantRow (fun k => v (ix2 p k)) k := by
  unfold quantBlock
  rw [mulf_apply, minimumf_apply, maximumf_apply, broadcast_apply, broadcast_apply, roundeven_apply, divf_apply,
    PlainDot.broadcastTo_a1_ab_apply]
  rw [scaleCol_entry]
  unfold quantRow onGrid
  simp only [Ideal.ofBits_def]

/-- The body's stored value is the quantized block times the weight operand plus the bias row repeated down the rows. -/
theorem pay_eq (x0 : Vec Ideal S512x2048 .f32) (w : Vec Ideal S2048x2048 .bf16) (b2 : Vec Ideal S1x2048 .f32) :
    k0_pay1 (F := Ideal) x0 w b2
      = addf (φ := .f32) (matmul (φ₁ := .bf16) (φ₂ := .bf16) dot_S512x2048_S2048x2048_S512x2048_1_0_0_1_n_n none
          (truncf .bf16 (quantBlock (shapeCast S512x2048 x0 shapeCasts_S512x2048_S512x2048)) bitsLt_bf16_f32)
          (shapeCast S2048x2048 w shapeCasts_S2048x2048_S2048x2048) (constant S512x2048 .f32 0x00000000#32))
        (broadcastTo S512x2048 (shapeCast S1x2048 b2 shapeCasts_S1x2048_S1x2048) broadcasts_S1x2048_S512x2048) := rfl

/-- THE BODY'S STORED VALUE at (p, q): the output entry of row p of the activation block against column q of the
    weight operand, plus the bias row's entry q. -/
theorem pay_entry (x0 : Vec Ideal S512x2048 .f32) (w : Vec Ideal S2048x2048 .bf16) (b2 : Vec Ideal S1x2048 .f32)
    (p : Fin 512) (q : Fin 2048) :
    k0_pay1 (F := Ideal) x0 w b2 (ix2 p q)
      = outEntry (fun k => x0 (ix2 p k)) (fun k => w (ix2 k q)) (b2 (ix2 (0 : Fin 1) q)) := by
  rw [pay_eq, shapeCast_self, shapeCast_self, shapeCast_self, addf_apply]
  simp only [matmul]
  rw [PlainDot.matmul_zero_apply _ rfl rfl rfl rfl rfl rfl, broadcastTo_1b_ab_apply]
  unfold outEntry
  refine congrArg (· + b2 (ix2 (0 : Fin 1) q)) (Finset.sum_congr rfl fun k _ => ?_)
  rw [truncf_apply, quantBlock_entry]

end Cert.KernelIdeal.BodyEntry

end
-- ==== Proof.BlocksToArray.lean ====
/-
  From the blocks the grid points write back to the whole [32768, 2048] output array.

  Grid point t reads rows 512 t .. 512 t + 511 of the flattened activations, the whole transposed weight and the whole
  bias row, and writes back rows 512 t .. 512 t + 511 of the output. Each output entry depends only on its own row of
  activations, so every block written back is the restriction of ONE function of the three arrays, and the 64 blocks
  tile the output array.
-/
import proofs.«165958_j33449205301739_1_alg».proof.Proof.Gen.KernelIdeal.Frame
import proofs.«165958_j33449205301739_1_alg».proof.Proof.BodyEntry
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.ActQuant

variable (m : (ℓ : Loc nD τ sig) → Buf (Elt Ideal) ℓ)

/-- The flat result: entry (r, o) is the output entry of activation row r against column o of the weight operand,
    plus the bias row's entry o. -/
def flat (xf : S32768x2048.Idx → EReal) (wT : S2048x2048.Idx → EReal) (b2 : S1x2048.Idx → EReal) :
    S32768x2048.Idx → EReal :=
  fun i => outEntry (fun k => xf (ix2 (i 0) k)) (fun k => wT (ix2 k (i 1))) (b2 (ix2 (0 : Fin 1) (i 1)))

theorem hz : (![0, 0] : Fin 2 → Nat) = fun _ => 0 := funext fun a => by fin_cases a <;> rfl

/-- The body's stored value at any index of the block, by its two coordinates. -/
theorem block_entry (x0 : Vec Ideal S512x2048 .f32) (w : Vec Ideal S2048x2048 .bf16) (b2 : Vec Ideal S1x2048 .f32)
    (j : S512x2048.Idx) :
    k0_pay1 (F := Ideal) x0 w b2 j
      = outEntry (fun k => x0 (ix2 (j 0) k)) (fun k => w (ix2 k (j 1))) (b2 (ix2 (0 : Fin 1) (j 1))) := by
  obtain ⟨p, q, rfl⟩ : ∃ (p : Fin 512) (q : Fin 2048), j = ix2 p q := ⟨j 0, j 1, eq_ix2 j⟩
  exact BodyEntry.pay_entry x0 w b2 p q

/-- The printed index maps over the grid: the activation and output windows move one block of rows per point, the
    weight and bias windows stay on their only block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the flat result of the arrays as the region finds them. -/
theorem flushed_eq (c : Dev nD) (t : Fin cfg0.N) :
    (dats m 0 c).flushed 3 t
      = ((cfg0.win 3).blk t).view.read (Elt Ideal) (flat (V m c main_v12) (V m c main_v11) (V m c main_v13)) := by
  show (cfg0.win 3).cut (grid0.coords t) ((dats m 0 c).after 3 t) = _
  rw [after0_3]
  unfold out0_3
  rw [View.canon_unit_zero hz]
  simp only [View.ld_unit_zero (S := S512x2048) hz, View.ld_unit_zero (S := S2048x2048) hz, View.ld_unit_zero (S := S1x2048) hz]
  obtain ⟨e00, e01, e10, e11, e20, e21, e30, e31⟩ := idx_facts t
  funext j
  show k0_pay1 (F := Ideal) (iblk m c 0 t) (iblk m c 1 t) (iblk m c 2 t) j
    = flat (V m c main_v12) (V m c main_v11) (V m c main_v13) (((cfg0.win 3).blk t).view.emb j)
  refine (block_entry (iblk m c 0 t) (iblk m c 1 t) (iblk m c 2 t) j).trans ?_
  unfold flat
  have hj0 : (j 0).val < 512 := (j 0).isLt
  have hj1 : (j 1).val < 2048 := (j 1).isLt
  have h0 : ∀ k : Fin 2048, ((cfg0.win 0).blk t).view.emb (ix2 (j 0) k) = ix2 ((((cfg0.win 3).blk t).view.emb j) 0) k := fun k =>
    funext fun a => Fin.ext (by
      match a with
      | ⟨0, _⟩ => show win0_0.index t (0 : Fin 2) * 512 + 1 * (j 0).val = win0_3.index t (0 : Fin 2) * 512 + 1 * (j 0).val; omega
      | ⟨1, _⟩ => show win0_0.index t (1 : Fin 2) * 2048 + 1 * k.val = k.val; omega)
  have h1 : ∀ k : Fin 2048, ((cfg0.win 1).blk t).view.emb (ix2 k (j 1)) = ix2 k ((((cfg0.win 3).blk t).view.emb j) 1) := fun k =>
    funext fun a => Fin.ext (by
      match a with
      | ⟨0, _⟩ => show win0_1.index t (0 : Fin 2) * 2048 + 1 * k.val = k.val; omega
      | ⟨1, _⟩ => show win0_1.index t (1 : Fin 2) * 2048 + 1 * (j 1).val = win0_3.index t (1 : Fin 2) * 2048 + 1 * (j 1).val; omega)
  have h2 : ((cfg0.win 2).blk t).view.emb (ix2 (0 : Fin 1) (j 1)) = ix2 (0 : Fin 1) ((((cfg0.win 3).blk t).view.emb j) 1) :=
    funext fun a => Fin.ext (by
      match a with
      | ⟨0, _⟩ => show win0_2.index t (0 : Fin 2) * 1 + 1 * 0 = 0; omega
      | ⟨1, _⟩ => show win0_2.index t (1 : Fin 2) * 2048 + 1 * (j 1).val = win0_3.index t (1 : Fin 2) * 2048 + 1 * (j 1).val; omega)
  show outEntry (fun k => V m c main_v12 (((cfg0.win 0).blk t).view.emb (ix2 (j 0) k)))
      (fun k => V m c main_v11 (((cfg0.win 1).blk t).view.emb (ix2 k (j 1))))
      (V m c main_v13 (((cfg0.win 2).blk t).view.emb (ix2 (0 : Fin 1) (j 1)))) = _
  simp only [h0, h1, h2]
  rfl

/-- An index of the output array is in point t's block iff each coordinate is in the block's range on its axis. -/
theorem mem_blk (t : Fin cfg0.N) (i : S32768x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v14).slice (win0_3.rect t)).set ↔ _
  rw [View.set_slice_whole, Rect.mem_set_unit]
  exact Iff.rfl

/-- Every block of rows is some point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-- The 64 blocks of 512 rows tile the output array: row r lies in the block of point r / 512. -/
theorem cover (i : S32768x2048.Idx) :
    ∃ t : Fin cfg0.N, (cfg0.win 3).flush t = true ∧ i ∈ ((cfg0.win 3).blk t).view.set := by
  have hi0 : (i 0).val < 32768 := (i 0).isLt
  have hi1 : (i 1).val < 2048 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE OUTPUT ARRAY after the region: the flat result of the arrays as the region finds them. -/
theorem final (c : Dev nD) :
    (dats m 0 c).arrAt 3 cfg0.N = flat (V m c main_v12) (V m c main_v11) (V m c main_v13) :=
  (dats m 0 c).arrAt_eq_of_cover 3 _ (fun t _ => flushed_eq m c t) cover

end Cert.KernelIdeal.Blocks

end
-- ==== Proof.HostSides.lean ====
/-
  What the host operations around the region compute.

  Before the region: the activations flattened to [32768, 2048]; the bias made a [1, 2048] row; the weight quantized
  to three levels on its mean absolute value, transposed and narrowed (the narrowing is the identity on the extended
  reals). After the region: the flat result cast back to [4, 8192, 2048].
-/
import proofs.«165958_j33449205301739_1_alg».proof.Proof.Gen.KernelIdeal.Frame
import Idealize.ShloMosaic.Lib.StableHlo.Run
import Idealize.ShloMosaic.PureOps.Ideal.Laws
import Idealize.ShloMosaic.Lib.Pipeline.Value

set_option maxRecDepth 16384

noncomputable section

namespace Cert.KernelIdeal.HostSides

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The flattened activations the region's first window stages. -/
theorem V_v12 (c : Dev nD) :
    (V m c main_v12 : S32768x2048.Idx → EReal)
      = shapeCast S32768x2048 (m ((c : Thread nD τ).loc main_arg0)) shapeCasts_S4x8192x2048_S32768x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The bias row the region's third window stages. -/
theorem V_v13 (c : Dev nD) :
    (V m c main_v13 : S1x2048.Idx → EReal)
      = shapeCast S1x2048 (m ((c : Thread nD τ).loc main_arg2)) shapeCasts_S2048_S1x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The weight's scale: the larger of the mean of its absolute values and the floor. -/
def alpha (w : S2048x2048.Idx → EReal) : S_.Idx → EReal :=
  maximumf (φ := .f32) (Host.divf (φ := .f32) (Host.reduceAdd (φ := .f32) (Host.absf (φ := .f32) w) (constant (F := Ideal) S_ .f32 0x00000000#32) reducesTo_S2048x2048_S_d0_1 h_S_)
    (constant (F := Ideal) S_ .f32 0x4A800000#32)) (constant (F := Ideal) S_ .f32 0x3727C5AC#32)

/-- The quantized weight [out, in]: the weight over its scale, rounded to even, clamped to [-1, 1], times the scale. -/
def wq (w : S2048x2048.Idx → EReal) : S2048x2048.Idx → EReal :=
  mulf (φ := .f32) (minimumf (φ := .f32) (broadcastInDim S2048x2048 ![] bcast_S_S2048x2048 (id (constant (F := Ideal) S_ .f32 0x3F800000#32)))
      (maximumf (φ := .f32) (broadcastInDim S2048x2048 ![] bcast_S_S2048x2048 (id (constant (F := Ideal) S_ .f32 0xBF800000#32)))
        (Host.roundeven (φ := .f32) (Host.divf (φ := .f32) w (broadcastInDim S2048x2048 ![] bcast_S_S2048x2048 (alpha w))))))
    (broadcastInDim S2048x2048 ![] bcast_S_S2048x2048 (alpha w))

/-- The weight operand the region's second window stages: the quantized weight transposed (and narrowed). -/
theorem V_v11 (c : Dev nD) :
    (V m c main_v11 : S2048x2048.Idx → EReal)
      = truncf (F := Ideal) (φ := .f32) .bf16 (transpose S2048x2048 [1, 0] (wq (m ((c : Thread nD τ).loc main_arg1))) transposes_S2048x2048_S2048x2048_1_0) bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- After the region the flat output array is cast back to [4, 8192, 2048]. -/
theorem tail_v15 (c : Dev nD) :
    (Pipeline.afterTail₀ cfgs (dats m) 0 (V0 m) [hostOps1] c main_v15 : S4x8192x2048.Idx → EReal)
      = shapeCast S4x8192x2048 ((dats m 0 c).arrAt 3 cfg0.N) shapeCasts_S32768x2048_S4x8192x2048 := by
  unfold Pipeline.afterTail₀
  show StableHlo.after hostOps1 _ (Proc.devRef .tc main_v15) = _
  after_results
  rw [Pipeline.withArrays_arr spec0 launch0.win.arr_inj c _ _ 3]
  rfl

end Cert.KernelIdeal.HostSides

end
-- ==== Proof.KernelValue.lean ====
/-
  The idealized kernel's result array.

  The region leaves the flat result of the flattened activations, the transposed quantized weight and the bias row;
  the cast back to [4, 8192, 2048] reads the flat entry (8192 a + s, o) at (a, s, o), where the flattened activations'
  row is row (a, s), the transposed weight's column o is the weight's row o, and the bias row's entry o is the bias
  at o: the specification's result.
-/
import proofs.«165958_j33449205301739_1_alg».proof.Proof.BlocksToArray
import proofs.«165958_j33449205301739_1_alg».proof.Proof.HostSides

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.ActQuant

/-- The flat result of the re-laid arguments, cast back, is the specification's result. -/
theorem recast_eq (x : S4x8192x2048.Idx → EReal) (w : S2048x2048.Idx → EReal) (b : S2048.Idx → EReal) :
    shapeCast S4x8192x2048
        (Blocks.flat (shapeCast S32768x2048 x shapeCasts_S4x8192x2048_S32768x2048)
          (truncf (F := Ideal) (φ := .f32) .bf16 (transpose S2048x2048 [1, 0] w transposes_S2048x2048_S2048x2048_1_0) bitsLt_bf16_f32)
          (shapeCast S1x2048 b shapeCasts_S2048_S1x2048))
        shapeCasts_S32768x2048_S4x8192x2048
      = result x w b := by
  funext i
  obtain ⟨a, s, o, rfl⟩ : ∃ (a : Fin 4) (s : Fin 8192) (o : Fin 2048), i = ix3 a s o := ⟨i 0, i 1, i 2, eq_ix3 i⟩
  have ha := a.isLt
  have hs := s.isLt
  have ho := o.isLt
  have hr : a.val * 8192 + s.val < 32768 := by omega
  rw [shapeCast_apply _ shapeCasts_S32768x2048_S4x8192x2048 (ix3 a s o) (ix2 (⟨a.val * 8192 + s.val, hr⟩ : Fin 32768) o)
    (by rw [Shape.rowMajor_val_two, Shape.rowMajor_val_three]; rfl)]
  have e0 : ∀ k : Fin 2048, shapeCast S32768x2048 x shapeCasts_S4x8192x2048_S32768x2048 (ix2 (⟨a.val * 8192 + s.val, hr⟩ : Fin 32768) k) = x (ix3 a s k) :=
    fun k => shapeCast_apply x _ _ _ (by rw [Shape.rowMajor_val_two, Shape.rowMajor_val_three]; rfl)
  have e1 : ∀ k : Fin 2048, truncf (F := Ideal) (φ := .f32) .bf16 (transpose S2048x2048 [1, 0] w transposes_S2048x2048_S2048x2048_1_0) bitsLt_bf16_f32 (ix2 k o) = w (ix2 o k) :=
    fun k => (truncf_apply (φ := .f32) (ψ := .bf16) (transpose S2048x2048 [1, 0] w transposes_S2048x2048_S2048x2048_1_0) bitsLt_bf16_f32 (ix2 k o)).trans
      (transpose_apply [1, 0] w transposes_S2048x2048_S2048x2048_1_0 (ix2 k o) (ix2 o k)
        (fun c => by match c with | ⟨0, _⟩ => rfl | ⟨1, _⟩ => rfl))
  have e2 : shapeCast S1x2048 b shapeCasts_S2048_S1x2048 (ix2 (0 : Fin 1) o) = b (ix1 o) :=
    shapeCast_apply b _ _ _ (by rw [Shape.rowMajor_val_two, Shape.rowMajor_val_one]; show o.val = 0 * 2048 + o.val; omega)
  show outEntry (fun k => shapeCast S32768x2048 x shapeCasts_S4x8192x2048_S32768x2048 (ix2 (⟨a.val * 8192 + s.val, hr⟩ : Fin 32768) k))
      (fun k => truncf (F := Ideal) (φ := .f32) .bf16 (transpose S2048x2048 [1, 0] w transposes_S2048x2048_S2048x2048_1_0) bitsLt_bf16_f32 (ix2 k o))
      (shapeCast S1x2048 b shapeCasts_S2048_S1x2048 (ix2 (0 : Fin 1) o))
    = outEntry (fun k => x (ix3 a s k)) (fun k => w (ix2 o k)) (b (ix1 o))
  simp only [e0, e1, e2]

variable (m : (ℓ : Loc nD τ sig) → Buf (Elt Ideal) ℓ) (ρ : Dev nD → PrngReg)

/-- What @main's result buffer holds after the host line that follows the region. -/
theorem result_v15 (c : Dev nD) :
    Pipeline.afterTail₀ cfgs (dats m) 0 (V0 m) [hostOps1] c main_v15
      = result (m ((c : Thread nD τ).loc main_arg0)) (HostSides.wq (m ((c : Thread nD τ).loc main_arg1))) (m ((c : Thread nD τ).loc main_arg2)) :=
  (HostSides.tail_v15 m c).trans (by
    rw [Blocks.final, HostSides.V_v12, HostSides.V_v11, HostSides.V_v13]
    exact recast_eq _ _ _)

/-- THE RUN, READ: every weakly fair execution of the idealized kernel's @main terminates with the result buffer at
    the specification's result of the argument arrays, and the arguments unchanged. -/
theorem run : θ_run defs (onTc (τ := τ) (main (F := Ideal))) ⟨m, fun _ => 0, ρ⟩ (fun r => ∀ c : Dev nD,
      r.2.mem ((c.tc : Thread nD τ).loc main_v15)
        = result (m ((c : Thread nD τ).loc main_arg0)) (HostSides.wq (m ((c : Thread nD τ).loc main_arg1))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (result_v15 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference's result is the specification's function of the activations, the quantized weight and the bias.

  The reference reduces each activation row to its greatest absolute value along the last axis, forms the row's
  scale, quantizes the row on that grid, contracts it with row o of the quantized weight and adds the bias at o:
  stage by stage this is the output entry of the specification.
-/
import proofs.«165958_j33449205301739_1_alg».proof.Proof.Gen.ReferenceIdeal.Read
import proofs.«165958_j33449205301739_1_alg».proof.Proof.Spec
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read Cert.ActQuant
open scoped BigOperators

/-- Row (a, s) of the activations. -/
abbrev row (x : S4x8192x2048.Idx → EReal) (a : Fin 4) (s : Fin 8192) : Fin 2048 → EReal := fun k => x (ix3 a s k)

theorem reduces_last : Shape.Reduces S4x8192x2048 [2] S4x8192 := by decide

/-- The reference's reduction of a row's absolute values along the last axis is the fold over the row. -/
theorem absMax_entry (x : S4x8192x2048.Idx → EReal) (a : Fin 4) (s : Fin 8192) :
    val_main_v11 (F := Ideal) x (ix2 a s) = rowAbsMax (row x a s) := by
  unfold val_main_v11
  rw [Host.reduce_eq_fold_single FloatOps.maximumf _ _ reducesTo_S4x8192x2048_S4x8192_d2 reduces_last h_S_ (ix2 a s)]
  unfold rowAbsMax
  have e : (val_main_v10 (F := Ideal) x ∘ reduces_last.lift (ix2 a s)) = fun k => FloatOps.absf (F := Ideal) (φ := .f32) (row x a s k) := by
    funext k
    show FloatOps.hostAbsf (F := Ideal) (φ := .f32) (x (reduces_last.lift (ix2 a s) k)) = FloatOps.absf (F := Ideal) (φ := .f32) (x (ix3 a s k))
    rw [Ideal.hostAbsf_def]
    refine congrArg (fun i => FloatOps.absf (F := Ideal) (φ := .f32) (x i)) ?_
    funext c
    exact Fin.ext (by match c with | ⟨0, _⟩ => rfl | ⟨1, _⟩ => rfl | ⟨2, _⟩ => rfl)
  rw [e, val_main_cst_4_apply]
  rfl

/-- An index of [4, 8192, 1] by its coordinates, and the coordinate maps the read-at-an-index lemmas compose. -/
theorem idx_v12 (a : Fin 4) (s : Fin 8192) (u : Fin 1) : idx_main_v12 (ix3 a s u) = ix2 a s :=
  funext fun c => Fin.ext (by match c with | ⟨0, _⟩ => rfl | ⟨1, _⟩ => rfl)
theorem idx_v17 (a : Fin 4) (s : Fin 8192) (k : Fin 2048) : idx_main_v17 (ix3 a s k) = ix3 a s (0 : Fin 1) :=
  funext fun c => Fin.ext (by match c with | ⟨0, _⟩ => rfl | ⟨1, _⟩ => rfl | ⟨2, _⟩ => rfl)
theorem idx_v21 (a : Fin 4) (s : Fin 8192) (k : Fin 2048) : idx_main_v21 (ix3 a s k) = ix3 a s (0 : Fin 1) :=
  funext fun c => Fin.ext (by match c with | ⟨0, _⟩ => rfl | ⟨1, _⟩ => rfl | ⟨2, _⟩ => rfl)
theorem lidx_v23 (a : Fin 4) (s : Fin 8192) (o k : Fin 2048) : lidx_main_v23 (ix3 a s o) k = ix3 a s k :=
  funext fun c => Fin.ext (by match c with | ⟨0, _⟩ => rfl | ⟨1, _⟩ => rfl | ⟨2, _⟩ => rfl)
theorem ridx_v23 (a : Fin 4) (s : Fin 8192) (o k : Fin 2048) : ridx_main_v23 (ix3 a s o) k = ix2 o k :=
  funext fun c => Fin.ext (by match c with | ⟨0, _⟩ => rfl | ⟨1, _⟩ => rfl)
theorem idx_v24_v25 (a : Fin 4) (s : Fin 8192) (o : Fin 2048) : idx_main_v24 (idx_main_v25 (ix3 a s o)) = ix1 o :=
  funext fun c => Fin.ext (by match c with | ⟨0, _⟩ => rfl)

/-- The reference's scale of row (a, s). -/
theorem scale_entry (x : S4x8192x2048.Idx → EReal) (a : Fin 4) (s : Fin 8192) :
    val_main_v16 (F := Ideal) x (ix3 a s (0 : Fin 1)) = rowScale (row x a s) := by
  rw [val_main_v16_apply, val_main_v14_apply, val_main_v12_apply, val_main_v13_apply, val_main_v15_apply,
    val_main_cst_5_apply, val_main_cst_6_apply, idx_v12, absMax_entry]
  unfold rowScale
  simp only [Ideal.ofBits_def, Ideal.hostDivf_def, Ideal.maximumf_def]

/-- The reference's quantized activations at (a, s, k). -/
theorem quant_entry (x : S4x8192x2048.Idx → EReal) (a : Fin 4) (s : Fin 8192) (k : Fin 2048) :
    val_main_v22 (F := Ideal) x (ix3 a s k) = quantRow (row x a s) k := by
  rw [val_main_v22_apply, val_main_v20_apply, val_main_call3_v4_apply, val_main_call3_v3_apply, val_main_cst_8_apply,
    val_main_call3_v2_apply, val_main_call3_v1_apply, val_main_call3_v0_apply, val_main_cst_7_apply,
    val_main_v19_apply, val_main_v18_apply, val_main_v17_apply, val_main_v21_apply, idx_v17, idx_v21, scale_entry]
  unfold quantRow onGrid
  simp only [Ideal.ofBits_def, Ideal.hostDivf_def, Ideal.maximumf_def, Ideal.minimumf_def, Ideal.mulf_def,
    Ideal.hostUnary_roundeven_def, Ideal.roundeven_def]

/-- THE REFERENCE'S RESULT is the specification's function of the activations, the quantized weight and the bias. -/
theorem result_eq (x : S4x8192x2048.Idx → EReal) (w : S2048x2048.Idx → EReal) (b : S2048.Idx → EReal) :
    val_main_v26 (F := Ideal) x w b = result x (val_main_v9 (F := Ideal) w) b := by
  funext i
  obtain ⟨a, s, o, rfl⟩ : ∃ (a : Fin 4) (s : Fin 8192) (o : Fin 2048), i = ix3 a s o := ⟨i 0, i 1, i 2, eq_ix3 i⟩
  rw [val_main_v26_apply, val_main_v23_apply, val_main_v25_apply, val_main_v24_apply, idx_v24_v25]
  unfold result outEntry
  rw [Ideal.addf_def]
  refine congrArg (· + b (ix1 o)) (Finset.sum_congr rfl fun k _ => ?_)
  rw [lidx_v23, ridx_v23, quant_entry]

end Cert.ReferenceIdeal.RefValue

end
-- ==== Proof.lean ====
/-
  A linear layer with a three-level weight and 8-bit activations, as a row-blocked kernel and as a jnp reference.

  Both programs quantize the weight on its mean absolute value by the same host operations, and both quantize every
  activation row on its own scale: the larger of the row's greatest absolute value and a floor, over 127; an entry is
  divided by the scale, rounded to even, clamped to [-128, 127] and scaled back. The kernel flattens the activations
  to [32768, 2048], hands 512 rows at a time to a body that quantizes them and multiplies them with the transposed
  weight into a zero accumulator, adds the bias row, and casts the flat result back; the reference contracts the
  quantized activations with the weight's rows directly. On the extended reals a change of float format is the
  identity, the row maximum is one fold of max whichever program takes it, and both contractions are the same sum
  over k of the same products: entry (a, s, o) of both results is
  (sum over k of the quantized activation (a, s, k) times the quantized weight (o, k)) + bias o.
  No law used needs finiteness, so the precondition is never opened. The frames of the two kernel programs are the
  generated ones; the reference's frame is its run with the result dropped; the idealization rewrote nothing.
-/
import proofs.«165958_j33449205301739_1_alg».proof.Defs
import proofs.«165958_j33449205301739_1_alg».proof.Proof.Gen.Kernel
import proofs.«165958_j33449205301739_1_alg».proof.Proof.Gen.Kernel.Frame
import proofs.«165958_j33449205301739_1_alg».proof.Proof.Gen.KernelIdeal
import proofs.«165958_j33449205301739_1_alg».proof.Proof.Gen.KernelIdeal.Frame
import proofs.«165958_j33449205301739_1_alg».proof.Proof.Gen.ReferenceIdeal
import proofs.«165958_j33449205301739_1_alg».proof.Proof.Gen.ReferenceIdeal.Run
import proofs.«165958_j33449205301739_1_alg».proof.Proof.Gen.ReferenceIdeal.Read
import proofs.«165958_j33449205301739_1_alg».proof.Proof.Gen.Pre_finite_inputs
import proofs.«165958_j33449205301739_1_alg».proof.Proof.KernelValue
import proofs.«165958_j33449205301739_1_alg».proof.Proof.RefValue

noncomputable section

namespace Cert.Proof

open Idealize.ShloMosaic Idealize.SL.Sem

/-- The quantized weight is one term of the weight array in both programs: the same operations in the same order. -/
theorem wq_eq (w : Cert.ReferenceIdeal.S2048x2048.Idx → EReal) :
    Cert.ReferenceIdeal.Read.val_main_v9 (F := Ideal) w = Cert.KernelIdeal.HostSides.wq w := rfl

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's result of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, wq_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
